-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S2x8192 : Shape := ⟨2, ![2, 8192]⟩
abbrev S2x512x3 : Shape := ⟨3, ![2, 512, 3]⟩
abbrev S2x2048x3 : Shape := ⟨3, ![2, 2048, 3]⟩
abbrev S2x512 : Shape := ⟨2, ![2, 512]⟩
abbrev S2x512x1 : Shape := ⟨3, ![2, 512, 1]⟩
abbrev S2x2048 : Shape := ⟨2, ![2, 2048]⟩
abbrev S2x512x2048 : Shape := ⟨3, ![2, 512, 2048]⟩
abbrev S2x1x2048 : Shape := ⟨3, ![2, 1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192, .f32⟩
  | .local _ .vmem, ⟨0, _⟩ => ⟨S2x512x3, .f32⟩
  | .local _ .vmem, ⟨1, _⟩ => ⟨S2x512x3, .f32⟩
  | .local _ .vmem, ⟨2, _⟩ => ⟨S2x2048x3, .f32⟩
  | .local _ .vmem, ⟨3, _⟩ => ⟨S2x2048x3, .f32⟩
  | .local _ .vmem, ⟨4, _⟩ => ⟨S2x512, .f32⟩
  | .local _ .vmem, ⟨5, _⟩ => ⟨S2x512, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S2x512_S2x512_0_0 : ∀ a, (![0, 0] : Fin 2 → Nat) a + S2x512.size a ≤ S2x512.size a
  h_S2x512 : 0 < S2x512.numel
  inb_S2x512x3_S2x512x3_0_0_0 : ∀ a, (![0, 0, 0] : Fin 3 → Nat) a + S2x512x3.size a ≤ S2x512x3.size a
  h_S2x512x3 : 0 < S2x512x3.numel
  inb_S2x2048x3_S2x2048x3_0_0_0 : ∀ a, (![0, 0, 0] : Fin 3 → Nat) a + S2x2048x3.size a ≤ S2x2048x3.size a
  h_S2x2048x3 : 0 < S2x2048x3.numel
  reduces_S2x512x3_S2x512 : S2x512x3.Reduces [2] S2x512
  shapeCasts_S2x512_S2x512x1 : S2x512.ShapeCasts S2x512x1
  reduces_S2x2048x3_S2x2048 : S2x2048x3.Reduces [2] S2x2048
  shapeCasts_S2x2048_S2x1x2048 : S2x2048.ShapeCasts S2x1x2048
  broadcasts_S2x512x1_S2x512x2048 : S2x512x1.Broadcasts S2x512x2048
  broadcasts_S2x1x2048_S2x512x2048 : S2x1x2048.Broadcasts S2x512x2048
  reduces_S2x512x2048_S2x512 : S2x512x2048.Reduces [2] S2x512
  shapeCasts_S2x512_S2x512 : S2x512.ShapeCasts S2x512
  dot_S2x512x3_S2x2048x3_S2x512x2048_2_2_1_1_0_0_wf : DotDims.WF S2x512x3 S2x2048x3 S2x512x2048 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x3.size a ≤ S2x8192x3.size a
  hwx0_0 : ∀ i : grid0.Coords, EltTy.bits .f32 = 32 ∨ (Rect.block (s := S2x8192x3) S2x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048x3.size a ≤ S2x8192x3.size a
  hwx0_1 : ∀ i : grid0.Coords, EltTy.bits .f32 = 32 ∨ (Rect.block (s := S2x8192x3) S2x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512.size a ≤ S2x8192.size a
  hwx0_2 : ∀ i : grid0.Coords, EltTy.bits .f32 = 32 ∨ (Rect.block (s := S2x8192) S2x512.size (cc0_transform_2 i) (hinb0_2 i)).WholeWords (EltTy.packing .f32)

variable [Facts₀]

def dot_S2x512x3_S2x2048x3_S2x512x2048_2_2_1_1_0_0 : DotDims S2x512x3 S2x2048x3 S2x512x2048 where
  lhsContracting := [2]
  rhsContracting := [2]
  lhsNonContracting := [1]
  rhsNonContracting := [1]
  lhsBatch := [0]
  rhsBatch := [0]
  wf := dot_S2x512x3_S2x2048x3_S2x512x2048_2_2_1_1_0_0_wf

abbrev win0_0 : Pipeline.Window sig grid0 :=
  Pipeline.Window.ofSpec (Memref.whole main_arg1) S2x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x8192 : Shape := ⟨3, ![2, 8192, 8192]⟩
abbrev S2x8192x1 : Shape := ⟨3, ![2, 8192, 1]⟩
abbrev S2x1x8192 : Shape := ⟨3, ![2, 1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192x3, .f32⟩
  | .hbm, ⟨3, _⟩ => ⟨S_, .f32⟩
  | .hbm, ⟨4, _⟩ => ⟨S2x8192, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S2x8192x8192, .f32⟩
  | .hbm, ⟨9, _⟩ => ⟨S2x8192x1, .f32⟩
  | .hbm, ⟨10, _⟩ => ⟨S2x1x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2x8192x8192, .f32⟩
  | .hbm, ⟨20, _⟩ => ⟨S2x8192x8192, .f32⟩
  | .hbm, ⟨21, _⟩ => ⟨S_, .f32⟩
  | .hbm, ⟨22, _⟩ => ⟨S2x8192, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.LibTiledMin.lean ====
/-
  A minimum taken tile by tile.

  Two general facts about minima over a finite index set, stated for any linear order (the first) and for the
  extended reals read as ideal float values (the second).

  * `fold_min_four_tiles`: let an index set be covered by four tiles (every index is the image of some pair
    (tile, place in the tile)). Folding `min` from a start value `z` over each tile and chaining the four
    results onto `z` gives the fold of `min` from `z` over the whole set. Only that `min` is the meet of a
    linear order is used: a lower bound of all is a lower bound of each tile's minimum and conversely; no
    property of `z` (such as being the top element) is needed.

  * `multiReduction_minimumf_single`: a vector minimum-reduction over one axis, at the ideal values, is at each
    reduced index the fold of `min` from the accumulator's value over that axis's coordinates.
-/
import Mathlib.Data.Finset.Fold
import Idealize.ShloMosaic.PureOps.Ideal.Laws

namespace TiledMin

open Finset

variable {α ι κ : Type*} [LinearOrder α] [Fintype ι] [Fintype κ]

/-- The minimum (from `z`) over an index set covered by four tiles is the chain, onto `z`, of the four tiles'
    minima (each from `z`). `e j k` is the index that place `k` of tile `j` stands for, `g j k` the value there. -/
theorem fold_min_four_tiles (z : α) (f : ι → α) (g : Fin 4 → κ → α) (e : Fin 4 → κ → ι)
    (hg : ∀ j k, g j k = f (e j k)) (he : ∀ n, ∃ j k, e j k = n) :
    min (min (min (min z (univ.fold min z (g 0))) (univ.fold min z (g 1))) (univ.fold min z (g 2)))
        (univ.fold min z (g 3))
      = univ.fold min z f := by
  -- the whole minimum is below the start value and below each tile's minimum
  have hz : univ.fold min z f ≤ z := (fold_min_le _).2 (Or.inl le_rfl)
  have hT : ∀ j, univ.fold min z f ≤ univ.fold min z (g j) := fun j =>
    (le_fold_min _).2 ⟨hz, fun k _ => by rw [hg]; exact (fold_min_le _).2 (Or.inr ⟨e j k, mem_univ _, le_rfl⟩)⟩
  apply le_antisymm
  · -- the chain is below the start value and below every value: the value sits in some tile
    refine (le_fold_min _).2 ⟨?_, fun n _ => ?_⟩
    · exact (min_le_left _ _).trans ((min_le_left _ _).trans ((min_le_left _ _).trans (min_le_left _ _)))
    · obtain ⟨j, k, rfl⟩ := he n
      have hk : univ.fold min z (g j) ≤ f (e j k) := by
        rw [← hg]; exact (fold_min_le _).2 (Or.inr ⟨k, mem_univ _, le_rfl⟩)
      refine le_trans ?_ hk
      match j with
      | ⟨0, _⟩ => exact (min_le_left _ _).trans ((min_le_left _ _).trans ((min_le_left _ _).trans (min_le_right _ _)))
      | ⟨1, _⟩ => exact (min_le_left _ _).trans ((min_le_left _ _).trans (min_le_right _ _))
      | ⟨2, _⟩ => exact (min_le_left _ _).trans (min_le_right _ _)
      | ⟨3, _⟩ => exact min_le_right _ _
  · exact le_min (le_min (le_min (le_min hz (hT 0)) (hT 1)) (hT 2)) (hT 3)

end TiledMin

namespace Idealize.ShloMosaic.Ideal

variable {φ : FTy}

/-- A float `vector.multi_reduction <minimumf>` over one axis, read at the ideal values: the fold of `min` from the
    accumulator's value over that axis's coordinates (the reduced index with the coordinate put back). -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

end Idealize.ShloMosaic.Ideal
-- ==== Proof.NearestSpec.lean ====
/-
  The specification: for every query point, the clamped squared distance to its nearest neighbour.

  For a query triple `p` and a cloud triple `q` the expanded squared distance is |p|² + |q|² − 2·(p·q), each of
  the three terms a sum over the three coordinates, and it is clamped below at zero. `nearest P X b r` is the
  minimum, started from +∞, of that quantity between query `r` of batch `b` and every point of the cloud. The
  number of queries `M` and of cloud points `N` are parameters, so that one definition serves a tile of the two
  arrays as well as the whole arrays. Everything is an extended real; the two float patterns (2.0 and +∞) are
  kept as patterns, since both programs carry the same ones.
-/
import Idealize.ShloMosaic.Lib.ValueIdx
import Idealize.ShloMosaic.PureOps.Ideal.Laws

noncomputable section

namespace Cert.Nearest

open Idealize.ShloMosaic Idealize.ShloMosaic.ValueIdx

/-- |p|² + |q|² − 2·(p·q), clamped below at zero. -/
def sqDist (p q : Fin 3 → EReal) : EReal :=
  max ((∑ d, p d * p d) + (∑ d, q d * q d) - Ideal.ofBits .f32 0x40000000#32 * ∑ d, p d * q d) 0

/-- The minimum, from +∞, over the cloud's points `n` of the clamped squared distance between query `(b, r)` of `P`
    and point `(b, n)` of `X`. -/
def nearest {M N : ℕ} (P : (⟨3, ![2, M, 3]⟩ : Shape).Idx → EReal) (X : (⟨3, ![2, N, 3]⟩ : Shape).Idx → EReal)
    (b : Fin 2) (r : Fin M) : EReal :=
  Finset.univ.fold min (Ideal.ofBits .f32 0x7F800000#32)
    fun n : Fin N => sqDist (fun d => P (ix3 b r d)) (fun d => X (ix3 b n d))

end Cert.Nearest

end
-- ==== Proof.TileValue.lean ====
/-
  What one grid step computes, read at an index.

  A grid step holds a tile `x0` of 512 queries and a tile `x1` of 2048 cloud points (each `[2, ·, 3]`) and the
  running minima `acc` (`[2, 512]`) left by the step before. It forms |p|² per query (a sum over the three
  coordinates, kept as a column), |q|² per cloud point (kept as a row), the cross products p·q as one batched matrix
  product contracting the coordinate axis, combines them into |p|² + |q|² − 2·(p·q), clamps at zero, takes the minimum
  over the tile's 2048 cloud points from +∞, and stores the minimum of that and `acc`. At the ideal values, at
  query `(b, r)`, this is `min (acc (b, r)) (nearest x0 x1 b r)`: the specification on the two tiles.
-/
import proofs.«143595_j26233660244157_1_alg».proof.Proof.Gen.KernelIdeal.Skeleton
import proofs.«143595_j26233660244157_1_alg».proof.Proof.LibTiledMin
import proofs.«143595_j26233660244157_1_alg».proof.Proof.NearestSpec
import Idealize.ShloMosaic.Lib.Pipeline.Value
import Idealize.ShloMosaic.Lib.ValueIdx
import Idealize.ShloMosaic.PureOps.Ideal.Laws

set_option synthInstance.maxSize 4096

noncomputable section

namespace Cert.KernelIdeal.Tile

open Cert.KernelIdeal Cert.KernelIdeal.Gen Idealize.ShloMosaic Idealize.ShloMosaic.ValueIdx Cert.Nearest

/-- A row's sum of squares: the sum over the coordinate axis of a `[2, A, 3]` array times itself, at `(b, r)`. -/
theorem sumSq_apply {A : ℕ} (x : FVec Ideal ⟨3, ![2, A, 3]⟩ .f32)
    (h : (⟨3, ![2, A, 3]⟩ : Shape).Reduces [2] ⟨2, ![2, A]⟩) (hφ : FKind.Formats .f32)
    (hacc : (0x00000000#32 : BitVec 32) = 0x00000000#32) (b : Fin 2) (r : Fin A) :
    multiReduction .add [2] ⟨2, ![2, A]⟩ (mulf x x) 0x00000000#32 h hφ hacc (ix2 b r)
      = ∑ d : Fin 3, x (ix3 b r d) * x (ix3 b r d) := by
  refine (Ideal.multiReduction_add_single (mulf x x) 0x00000000#32 h hφ hacc (ix2 b r)).trans ?_
  refine Finset.sum_congr rfl fun d _ => ?_
  have e : h.lift (ix2 b r) d = ix3 b r d :=
    funext fun c => Fin.ext (by match c with | ⟨0, _⟩ => rfl | ⟨1, _⟩ => rfl | ⟨2, _⟩ => rfl)
  rw [e]; rfl

/-- The column of row sums `v` (`[2, 512]`, cast to `[2, 512, 1]`) broadcast along the cloud axis reads, at
    `(b, r, n)`, `v (b, r)`. -/
theorem colBroadcast_apply (v : FVec Ideal S2x512 .f32) (b : Fin 2) (r : Fin 512) (n : Fin 2048) :
    broadcastTo S2x512x2048 (shapeCast S2x512x1 v shapeCasts_S2x512_S2x512x1) broadcasts_S2x512x1_S2x512x2048 (ix3 b r n)
      = v (ix2 b r) := by
  rw [broadcastTo_apply _ broadcasts_S2x512x1_S2x512x2048 (ix3 b r n) (ix3 b r (0 : Fin 1)) (fun a => by
    match a with
    | ⟨0, _⟩ => rfl
    | ⟨1, _⟩ => rfl
    | ⟨2, _⟩ => rfl)]
  exact shapeCast_apply v shapeCasts_S2x512_S2x512x1 _ _ (by
    rw [Shape.rowMajor_val_two, Shape.rowMajor_val_three]
    show b.val * 512 + r.val = (b.val * 512 + r.val) * 1 + 0
    omega)

/-- The row of cloud sums `v` (`[2, 2048]`, cast to `[2, 1, 2048]`) broadcast along the query axis reads, at
    `(b, r, n)`, `v (b, n)`. -/
theorem rowBroadcast_apply (v : FVec Ideal S2x2048 .f32) (b : Fin 2) (r : Fin 512) (n : Fin 2048) :
    broadcastTo S2x512x2048 (shapeCast S2x1x2048 v shapeCasts_S2x2048_S2x1x2048) broadcasts_S2x1x2048_S2x512x2048 (ix3 b r n)
      = v (ix2 b n) := by
  rw [broadcastTo_apply _ broadcasts_S2x1x2048_S2x512x2048 (ix3 b r n) (ix3 b (0 : Fin 1) n) (fun a => by
    match a with
    | ⟨0, _⟩ => rfl
    | ⟨1, _⟩ => rfl
    | ⟨2, _⟩ => rfl)]
  exact shapeCast_apply v shapeCasts_S2x2048_S2x1x2048 _ _ (by
    rw [Shape.rowMajor_val_two, Shape.rowMajor_val_three]
    show b.val * 2048 + n.val = (b.val * 1 + 0) * 2048 + n.val
    omega)

/-! ### The batched product's operand indices

At output index `(b, r, n)` and contraction coordinate `k` the left operand is read at `(b, r, k)` and the right at
`(b, n, k)`: axis 0 is the batch axis of both, axis 1 the free axis of each, axis 2 the contracted one. -/

theorem lhs_cross_0 (i : S2x512x2048.Idx) (q : dot_S2x512x3_S2x2048x3_S2x512x2048_2_2_1_1_0_0.contr.Idx) :
    (dot_S2x512x3_S2x2048x3_S2x512x2048_2_2_1_1_0_0.lhsIdx i q 0).val = (i 0).val := by
  unfold DotDims.lhsIdx
  rw [dif_pos (show (0 : Fin S2x512x3.rank) ∈ dot_S2x512x3_S2x2048x3_S2x512x2048_2_2_1_1_0_0.lhsBatch by decide)]
  rfl
theorem lhs_cross_1 (i : S2x512x2048.Idx) (q : dot_S2x512x3_S2x2048x3_S2x512x2048_2_2_1_1_0_0.contr.Idx) :
    (dot_S2x512x3_S2x2048x3_S2x512x2048_2_2_1_1_0_0.lhsIdx i q 1).val = (i 1).val := by
  unfold DotDims.lhsIdx
  rw [dif_neg (show ¬(1 : Fin S2x512x3.rank) ∈ dot_S2x512x3_S2x2048x3_S2x512x2048_2_2_1_1_0_0.lhsBatch by decide), dif_pos (show (1 : Fin S2x512x3.rank) ∈ dot_S2x512x3_S2x2048x3_S2x512x2048_2_2_1_1_0_0.lhsNonContracting by decide)]
  rfl
theorem lhs_cross_2 (i : S2x512x2048.Idx) (q : dot_S2x512x3_S2x2048x3_S2x512x2048_2_2_1_1_0_0.contr.Idx) :
    (dot_S2x512x3_S2x2048x3_S2x512x2048_2_2_1_1_0_0.lhsIdx i q 2).val = (q ⟨0, by decide⟩).val :=
  dot_S2x512x3_S2x2048x3_S2x512x2048_2_2_1_1_0_0.lhsIdx_val_of_single rfl i q
theorem rhs_cross_0 (i : S2x512x2048.Idx) (q : dot_S2x512x3_S2x2048x3_S2x512x2048_2_2_1_1_0_0.contr.Idx) :
    (dot_S2x512x3_S2x2048x3_S2x512x2048_2_2_1_1_0_0.rhsIdx i q 0).val = (i 0).val := by
  unfold DotDims.rhsIdx
  rw [dif_pos (show (0 : Fin S2x2048x3.rank) ∈ dot_S2x512x3_S2x2048x3_S2x512x2048_2_2_1_1_0_0.rhsBatch by decide)]
  rfl
theorem rhs_cross_1 (i : S2x512x2048.Idx) (q : dot_S2x512x3_S2x2048x3_S2x512x2048_2_2_1_1_0_0.contr.Idx) :
    (dot_S2x512x3_S2x2048x3_S2x512x2048_2_2_1_1_0_0.rhsIdx i q 1).val = (i 2).val := by
  unfold DotDims.rhsIdx
  rw [dif_neg (show ¬(1 : Fin S2x2048x3.rank) ∈ dot_S2x512x3_S2x2048x3_S2x512x2048_2_2_1_1_0_0.rhsBatch by decide), dif_pos (show (1 : Fin S2x2048x3.rank) ∈ dot_S2x512x3_S2x2048x3_S2x512x2048_2_2_1_1_0_0.rhsNonContracting by decide)]
  rfl
theorem rhs_cross_2 (i : S2x512x2048.Idx) (q : dot_S2x512x3_S2x2048x3_S2x512x2048_2_2_1_1_0_0.contr.Idx) :
    (dot_S2x512x3_S2x2048x3_S2x512x2048_2_2_1_1_0_0.rhsIdx i q 2).val = (q ⟨0, by decide⟩).val :=
  dot_S2x512x3_S2x2048x3_S2x512x2048_2_2_1_1_0_0.rhsIdx_val_of_single rfl i q

/-- The cross products: the batched matrix product into a zero accumulator reads, at `(b, r, n)`, the sum over the
    three coordinates of query `(b, r)` times cloud point `(b, n)`. -/
theorem cross_apply (x0 : FVec Ideal S2x512x3 .f32) (x1 : FVec Ideal S2x2048x3 .f32) (b : Fin 2) (r : Fin 512) (n : Fin 2048) :
    matmul dot_S2x512x3_S2x2048x3_S2x512x2048_2_2_1_1_0_0 none x0 x1 (constant S2x512x2048 .f32 0x00000000#32) (ix3 b r n)
      = ∑ d : Fin 3, x0 (ix3 b r d) * x1 (ix3 b n d) := by
  simp only [matmul]
  rw [Ideal.matmul_constant_zero_apply, ← Equiv.sum_comp (ValueIdx.contrEquiv1 dot_S2x512x3_S2x2048x3_S2x512x2048_2_2_1_1_0_0 3 rfl rfl).symm]
  refine Finset.sum_congr rfl fun k _ => ?_
  have hk := ValueIdx.contrEquiv1_symm_val dot_S2x512x3_S2x2048x3_S2x512x2048_2_2_1_1_0_0 3 rfl rfl k
  have el : dot_S2x512x3_S2x2048x3_S2x512x2048_2_2_1_1_0_0.lhsIdx (ix3 b r n) ((ValueIdx.contrEquiv1 dot_S2x512x3_S2x2048x3_S2x512x2048_2_2_1_1_0_0 3 rfl rfl).symm k) = ix3 b r k := funext fun a => Fin.ext (by
    match a with
    | ⟨0, _⟩ => exact lhs_cross_0 _ _
    | ⟨1, _⟩ => exact lhs_cross_1 _ _
    | ⟨2, _⟩ => exact (lhs_cross_2 _ _).trans hk)
  have er : dot_S2x512x3_S2x2048x3_S2x512x2048_2_2_1_1_0_0.rhsIdx (ix3 b r n) ((ValueIdx.contrEquiv1 dot_S2x512x3_S2x2048x3_S2x512x2048_2_2_1_1_0_0 3 rfl rfl).symm k) = ix3 b n k := funext fun a => Fin.ext (by
    match a with
    | ⟨0, _⟩ => exact rhs_cross_0 _ _
    | ⟨1, _⟩ => exact rhs_cross_1 _ _
    | ⟨2, _⟩ => exact (rhs_cross_2 _ _).trans hk)
  rw [el, er]

/-- The pointwise part, read at an index: `max (A + B − C·D) Z`. -/
theorem clamp_apply {s : Shape} (A B C D Z : FVec Ideal s .f32) (i : s.Idx) :
    maximumf (subf (addf A B) (mulf C D)) Z i = max (A i + B i - C i * D i) (Z i) := rfl

/-- ONE GRID STEP at query `(b, r)`: the minimum of what the step before left and the specification on the step's
    two tiles. -/
theorem pay2_apply (x0 : Vec Ideal S2x512x3 .f32) (x1 : Vec Ideal S2x2048x3 .f32) (acc : Vec Ideal S2x512 .f32)
    (b : Fin 2) (r : Fin 512) :
    k0_pay2 (F := Ideal) x0 x1 acc (ix2 b r) = min (acc (ix2 b r)) (nearest x0 x1 b r) := by
  unfold k0_pay2
  dsimp only
  refine (minimumf_apply _ _ (ix2 b r)).trans ?_
  refine congrArg₂ min (congrFun (shapeCast_self acc _) (ix2 b r)) ?_
  refine (Ideal.multiReduction_minimumf_single _ _ _ _ _ (ix2 b r)).trans ?_
  unfold nearest
  refine congrArg (fun f => Finset.fold min (Ideal.ofBits .f32 0x7F800000#32) f Finset.univ) (funext fun n => ?_)
  have e : reduces_S2x512x2048_S2x512.lift (ix2 b r) n = ix3 b r n :=
    funext fun c => Fin.ext (by match c with | ⟨0, _⟩ => rfl | ⟨1, _⟩ => rfl | ⟨2, _⟩ => rfl)
  refine (congrArg _ e).trans ?_
  refine (clamp_apply _ _ _ _ _ (ix3 b r n)).trans ?_
  unfold sqDist
  refine congrArg₂ max (congrArg₂ (· - ·) (congrArg₂ (· + ·) ?_ ?_) (congrArg₂ (· * ·) rfl ?_)) Ideal.ofBits_zero_f32
  · exact (colBroadcast_apply _ b r n).trans (sumSq_apply x0 _ _ _ b r)
  · exact (rowBroadcast_apply _ b r n).trans (sumSq_apply x1 _ _ _ b n)
  · exact cross_apply x0 x1 b r n

end Cert.KernelIdeal.Tile

end
-- ==== Proof.Blocks.lean ====
/-
  From the grid steps to the result array.

  The grid has 16 × 4 points, point `t` holding query tile `t / 4` (512 queries) and cloud tile `t % 4` (2048
  points). The four points of one query tile run consecutively; the first resets the running minima to +∞ and each
  takes the minimum with its own cloud tile's minima, and the last one's result is written to the output block of that
  query tile. So the output at query `(b, q)` is the chain, from +∞, of the four cloud tiles' minima for that query,
  and since the four tiles cover the cloud, that is the minimum over the whole cloud: the specification `nearest` on
  the whole arrays.
-/
import proofs.«143595_j26233660244157_1_alg».proof.Proof.Gen.KernelIdeal.Value
import proofs.«143595_j26233660244157_1_alg».proof.Proof.TileValue

set_option synthInstance.maxSize 4096

noncomputable section

namespace Cert.KernelIdeal.Blocks

open Cert.KernelIdeal Cert.KernelIdeal.Gen Idealize.ShloMosaic Idealize.ShloMosaic.TcCoe Idealize.SL.Sem
  Idealize.ShloMosaic.ValueIdx Cert.Nearest Cert.KernelIdeal.Tile

variable (m : (ℓ : Loc nD τ sig) → Buf (Elt Ideal) ℓ)

/-- The query array and the cloud array as the program is launched with them, and a point's two input tiles, at
    their literal types. -/
abbrev queries (c : Dev nD) : Vec Ideal S2x8192x3 .f32 := m ((c : Thread nD τ).loc main_arg1)
abbrev cloud (c : Dev nD) : Vec Ideal S2x8192x3 .f32 := m ((c : Thread nD τ).loc main_arg0)
abbrev qtile (c : Dev nD) (t : Fin cfg0.N) : Vec Ideal S2x512x3 .f32 := iblk m c 0 t
abbrev ctile (c : Dev nD) (t : Fin cfg0.N) : Vec Ideal S2x2048x3 .f32 := iblk m c 1 t

/-- Point `t`'s query tile is block `(0, t / 4, 0)` and its cloud tile block `(0, t % 4, 0)`: decided over the grid. -/
theorem tile_indices : ∀ t : Fin cfg0.N,
    win0_0.index t (0 : Fin 3) = 0 ∧ win0_0.index t (1 : Fin 3) = t.val / 4 ∧ win0_0.index t (2 : Fin 3) = 0
    ∧ win0_1.index t (0 : Fin 3) = 0 ∧ win0_1.index t (1 : Fin 3) = t.val % 4 ∧ win0_1.index t (2 : Fin 3) = 0 :=
  (by decide +kernel : ∀ t : Fin grid0.N, _)

/-- Row `r` of point `t`'s query tile is query `512 · (t / 4) + r`. -/
theorem qtile_apply (c : Dev nD) (t : Fin cfg0.N) (b : Fin 2) (r : Fin 512) (d : Fin 3) (q : Fin 8192)
    (hq : q.val = 512 * (t.val / 4) + r.val) :
    qtile m c t (ix3 b r d) = queries m c (ix3 b q d) := by
  obtain ⟨e0, e1, e2, -, -, -⟩ := tile_indices t
  show m ((c : Thread nD τ).loc main_arg1) (((cfg0.win 0).blk t).view.emb (ix3 b r d)) = _
  refine congrArg (m ((c : Thread nD τ).loc main_arg1)) (funext fun a => Fin.ext ?_)
  match a with
  | ⟨0, _⟩ => show win0_0.index t (0 : Fin 3) * 2 + 1 * b.val = b.val; omega
  | ⟨1, _⟩ => show win0_0.index t (1 : Fin 3) * 512 + 1 * r.val = q.val; omega
  | ⟨2, _⟩ => show win0_0.index t (2 : Fin 3) * 3 + 1 * d.val = d.val; omega

/-- Row `n` of point `t`'s cloud tile is cloud point `2048 · (t % 4) + n`. -/
theorem ctile_apply (c : Dev nD) (t : Fin cfg0.N) (b : Fin 2) (n : Fin 2048) (d : Fin 3) (p : Fin 8192)
    (hp : p.val = 2048 * (t.val % 4) + n.val) :
    ctile m c t (ix3 b n d) = cloud m c (ix3 b p d) := by
  obtain ⟨-, -, -, e0, e1, e2⟩ := tile_indices t
  show m ((c : Thread nD τ).loc main_arg0) (((cfg0.win 1).blk t).view.emb (ix3 b n d)) = _
  refine congrArg (m ((c : Thread nD τ).loc main_arg0)) (funext fun a => Fin.ext ?_)
  match a with
  | ⟨0, _⟩ => show win0_1.index t (0 : Fin 3) * 2 + 1 * b.val = b.val; omega
  | ⟨1, _⟩ => show win0_1.index t (1 : Fin 3) * 2048 + 1 * n.val = p.val; omega
  | ⟨2, _⟩ => show win0_1.index t (2 : Fin 3) * 3 + 1 * d.val = d.val; omega

/-- Place `n` of cloud tile `j` is cloud point `2048 · j + n`. -/
def cloudPt (j : Fin 4) (n : Fin 2048) : Fin 8192 :=
  ⟨2048 * j.val + n.val, by have := j.isLt; have := n.isLt; omega⟩

/-- The minimum, from +∞, over cloud tile `j` of the clamped squared distance from query `(b, q)`. -/
def tileMin (c : Dev nD) (b : Fin 2) (q : Fin 8192) (j : Fin 4) : EReal :=
  Finset.univ.fold min (Ideal.ofBits .f32 0x7F800000#32)
    fun n : Fin 2048 => sqDist (fun d => queries m c (ix3 b q d)) (fun d => cloud m c (ix3 b (cloudPt j n) d))

/-- ONE GRID STEP at point `t`, over what the step before left (`acc`), at row `r` of the point's query tile: the
    minimum of `acc` there and the point's cloud tile's minimum for the query that row stands for. -/
theorem step_apply (c : Dev nD) (t : Fin cfg0.N) (acc : Vec Ideal S2x512 .f32) (b : Fin 2) (r : Fin 512) (q : Fin 8192)
    (j : Fin 4) (hq : q.val = 512 * (t.val / 4) + r.val) (hj : t.val % 4 = j.val) :
    k0_pay2 (F := Ideal) (iblk m c 0 t) (iblk m c 1 t) acc (ix2 b r) = min (acc (ix2 b r)) (tileMin m c b q j) := by
  refine (pay2_apply (qtile m c t) (ctile m c t) acc b r).trans (congrArg (min (acc (ix2 b r))) ?_)
  unfold nearest tileMin
  refine congrArg (fun f => Finset.fold min (Ideal.ofBits .f32 0x7F800000#32) f Finset.univ) (funext fun n => ?_)
  refine congrArg₂ sqDist (funext fun d => qtile_apply m c t b r d q hq)
    (funext fun d => ctile_apply m c t b n d (cloudPt j n) ?_)
  show 2048 * j.val + n.val = 2048 * (t.val % 4) + n.val
  rw [hj]

/-- THE RESULT ARRAY at query `(b, q)`: the minimum over the whole cloud. The four points of query tile `q / 512`
    leave the chain of the four cloud tiles' minima, and the tiles cover the cloud. -/
theorem result_apply (c : Dev nD) (b : Fin 2) (q : Fin 8192) :
    Value.G2 (F := Ideal) m c (ix2 b q) = nearest (queries m c) (cloud m c) b q := by
  have hN : cfg0.N = 64 := N_0
  have hb := b.isLt
  have hq := q.isLt
  have hrun : Value.run2Of (ix2 b q) = q.val / 512 := by
    show 16 * (b.val / 2 - 0) + 1 * (q.val / 512 - 0) = _
    omega
  have hlt : 4 * Value.run2Of (ix2 b q) + 3 < cfg0.N := by rw [hrun, hN]; omega
  have hloc : Value.loc2Of (ix2 b q) = ix2 b (⟨q.val % 512, Nat.mod_lt _ (by decide)⟩ : Fin 512) :=
    funext fun a => Fin.ext (by
      match a with
      | ⟨0, _⟩ => show b.val % 2 = b.val; omega
      | ⟨1, _⟩ => rfl)
  unfold Value.G2
  rw [dif_pos hlt, hloc]
  generalize hB : 4 * Value.run2Of (ix2 b q) = B at hlt
  have hB' : B = 4 * (q.val / 512) := by rw [← hB, hrun]
  -- the run of four points, unrolled: a reset and three steps
  show Value.step2 m c (B + 3) hlt (Value.step2 m c (B + 2) (by omega) (Value.step2 m c (B + 1) (by omega)
    (Value.reset2 m c B (by omega)))) (ix2 b (⟨q.val % 512, Nat.mod_lt _ (by decide)⟩ : Fin 512)) = _
  unfold Value.step2 Value.reset2
  rw [step_apply m c ⟨B + 3, hlt⟩ _ b _ q 3 (by show q.val = 512 * ((B + 3) / 4) + q.val % 512; omega) (by show (B + 3) % 4 = 3; omega),
    step_apply m c ⟨B + 2, by omega⟩ _ b _ q 2 (by show q.val = 512 * ((B + 2) / 4) + q.val % 512; omega) (by show (B + 2) % 4 = 2; omega),
    step_apply m c ⟨B + 1, by omega⟩ _ b _ q 1 (by show q.val = 512 * ((B + 1) / 4) + q.val % 512; omega) (by show (B + 1) % 4 = 1; omega),
    step_apply m c ⟨B, by omega⟩ _ b _ q 0 (by show q.val = 512 * (B / 4) + q.val % 512; omega) (by show B % 4 = 0; omega)]
  -- the four tiles cover the cloud
  exact TiledMin.fold_min_four_tiles (Ideal.ofBits .f32 0x7F800000#32)
    (fun n : Fin 8192 => sqDist (fun d => queries m c (ix3 b q d)) (fun d => cloud m c (ix3 b n d)))
    (fun j n => sqDist (fun d => queries m c (ix3 b q d)) (fun d => cloud m c (ix3 b (cloudPt j n) d)))
    cloudPt (fun _ _ => rfl)
    (fun n => ⟨⟨n.val / 2048, by have := n.isLt; omega⟩, ⟨n.val % 2048, Nat.mod_lt _ (by decide)⟩,
      Fin.ext (by show 2048 * (n.val / 2048) + n.val % 2048 = n.val; omega)⟩)

end Cert.KernelIdeal.Blocks

end
-- ==== Proof.RefSide.lean ====
/-
  The reference, read at an index.

  The reference forms |p|² for every query and |q|² for every cloud point (sums over the three coordinates, from
  zero), the cross products p·q for every pair as one batched product, |p|² + |q|² − 2·(p·q) for every pair, clamps
  at zero, and takes the minimum over the cloud axis from +∞. Its result at query `(b, r)` is therefore the
  specification `nearest` on the whole arrays, with the queries the second argument of the program and the cloud
  the first.
-/
import proofs.«143595_j26233660244157_1_alg».proof.Proof.Gen.ReferenceIdeal.Read
import proofs.«143595_j26233660244157_1_alg».proof.Proof.NearestSpec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
  Cert.Nearest

/-- The reference's result at query `(b, r)`: the nearest clamped squared distance from query `(b, r)` of `x1` to the
    points of `x0`. -/
theorem result_apply (x0 x1 : (⟨S2x8192x3, .f32⟩ : BufTy).Contents (Elt Ideal)) (b : Fin 2) (r : Fin 8192) :
    val_main_v15 (F := Ideal) x0 x1 (ix2 b r) = nearest x1 x0 b r := by
  have h : S2x8192x8192.Reduces [2] S2x8192 := by decide
  unfold val_main_v15
  refine (Host.reduce_eq_fold_single FloatOps.minimumf _ _ reducesTo_S2x8192x8192_S2x8192_d2 h h_S_ (ix2 b r)).trans ?_
  unfold nearest
  refine congrArg (fun f => Finset.fold min (Ideal.ofBits .f32 0x7F800000#32) f Finset.univ) (funext fun (n : Fin 8192) => ?_)
  have e : h.lift (ix2 b r) n = ix3 b r n :=
    funext fun c => Fin.ext (by match c with | ⟨0, _⟩ => rfl | ⟨1, _⟩ => rfl | ⟨2, _⟩ => rfl)
  refine (congrArg _ e).trans ?_
  -- the coordinates each stage reads at
  have i1 : ∀ k : Fin 3, idx_main_v1 (idx_main_v5 (idx_main_v7 (ix3 b r n))) k = ix3 b r k := fun k =>
    funext fun a => Fin.ext (by match a with | ⟨0, _⟩ => rfl | ⟨1, _⟩ => rfl | ⟨2, _⟩ => rfl)
  have i3 : ∀ k : Fin 3, idx_main_v3 (idx_main_v6 (idx_main_v8 (ix3 b r n))) k = ix3 b n k := fun k =>
    funext fun a => Fin.ext (by match a with | ⟨0, _⟩ => rfl | ⟨1, _⟩ => rfl | ⟨2, _⟩ => rfl)
  have il : ∀ k : Fin 3, lidx_main_v4 (ix3 b r n) k = ix3 b r k := fun k =>
    funext fun a => Fin.ext (by match a with | ⟨0, _⟩ => rfl | ⟨1, _⟩ => rfl | ⟨2, _⟩ => rfl)
  have ir : ∀ k : Fin 3, ridx_main_v4 (ix3 b r n) k = ix3 b n k := fun k =>
    funext fun a => Fin.ext (by match a with | ⟨0, _⟩ => rfl | ⟨1, _⟩ => rfl | ⟨2, _⟩ => rfl)
  rw [val_main_v14_apply, val_main_v12_apply, val_main_v9_apply, val_main_v11_apply, val_main_v7_apply, val_main_v5_apply,
    val_main_v1_apply, val_main_v8_apply, val_main_v6_apply, val_main_v3_apply, val_main_v4_apply, val_main_v10_apply,
    val_main_v13_apply]
  simp only [i1, i3, il, ir, val_main_v0_apply, val_main_v2_apply, val_main_cst_apply, val_main_cst_0_apply,
    val_main_cst_1_apply, val_main_cst_2_apply, Ideal.addf_def, Ideal.subf_def, Ideal.mulf_def, Ideal.maximumf_def,
    Ideal.ofBits_def, Ideal.ofBits_zero_f32, zero_add]
  rfl

end Cert.ReferenceIdeal.RefValue

end
-- ==== Proof.lean ====
/-
  One-sided nearest-neighbour squared distance: for every query point, the minimum over a cloud of 8192 points of
  the expanded squared distance |p|² + |q|² − 2·(p·q), clamped below at zero.

  The reference computes the quantity for every (query, cloud point) pair and takes one minimum over the cloud axis,
  from +∞. The kernel walks a 16 × 4 grid: a tile of 512 queries against a tile of 2048 cloud points per step, the
  minimum over the tile taken at once and folded, by `min`, into running minima that start at +∞ on the first of
  a query tile's four steps. Step by step both compute the same extended real for a pair (the same three sums over the
  coordinates, the same constant 2, the same clamp), and a minimum over the cloud is the chain of the minima over four
  tiles that cover it — `min` being the meet of a linear order, whatever the values (no finiteness is used, and the
  precondition is never opened).

  The modules: `NearestSpec` states the quantity; `LibTiledMin` the law about tiled minima; `TileValue` reads one grid
  step at an index; `Blocks` reads the tiles off the arrays and the result array off the grid's runs; `RefSide` reads
  the reference at an index. Here the two runs are put side by side.
-/
import proofs.«143595_j26233660244157_1_alg».proof.Defs
import proofs.«143595_j26233660244157_1_alg».proof.Proof.Gen.Kernel.Frame
import proofs.«143595_j26233660244157_1_alg».proof.Proof.Gen.KernelIdeal.Value
import proofs.«143595_j26233660244157_1_alg».proof.Proof.Gen.Pre_finite_inputs
import proofs.«143595_j26233660244157_1_alg».proof.Proof.Gen.ReferenceIdeal.Run
import proofs.«143595_j26233660244157_1_alg».proof.Proof.Blocks
import proofs.«143595_j26233660244157_1_alg».proof.Proof.RefSide
import Idealize.ShloMosaic.Adequacy
import Idealize.ShloMosaic.Init

noncomputable section

namespace Cert.Proof

open Idealize.ShloMosaic Idealize.SL.Sem Idealize.ShloMosaic.ValueIdx

/-- The idealized kernel's run ends with its arguments unchanged: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference's run ends with its arguments unchanged: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- On agreeing arguments both programs end with the nearest clamped squared distance of every query: the kernel's
    result array is the runs' folds, which are that minimum (`Blocks.result_apply`), and the reference's result is that
    minimum (`RefValue.result_apply`). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v15_eq _ _).trans ?_
  funext i
  obtain ⟨b, q, rfl⟩ : ∃ (b : Fin 2) (q : Fin 8192), i = ix2 b q := ⟨i 0, i 1, eq_ix2 i⟩
  rw [Cert.ReferenceIdeal.RefValue.result_apply, Cert.KernelIdeal.Blocks.result_apply]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
